-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S500000 : Shape := ⟨1, ![500000]⟩
abbrev S256x512 : Shape := ⟨2, ![256, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S512 .f32) (main_arg6 : FVec F S512x128 .f32) (main_arg7 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S500000x256 .f32) (main_arg1 : IVec S500000 32) (main_arg2 : FVec F S256x512 .f32) (main_arg3 : FVec F S512 .f32) (main_arg4 : FVec F S512x512 .f32) (main_arg5 : FVec F S512 .f32) (main_arg6 : FVec F S512x128 .f32) (main_arg7 : FVec F S128 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_v13 main_v16
-- ==== Kernel.lean ====
abbrev S500000x256 : Shape := ⟨2, ![500000, 256]⟩
abbrev S500000 : Shape := ⟨1, ![500000]⟩
abbrev S256x512 : Shape := ⟨2, ![256, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S500000x1 : Shape := ⟨2, ![500000, 1]⟩
abbrev S1x512 : Shape := ⟨2, ![1, 512]⟩
abbrev S1x128 : Shape := ⟨2, ![1, 128]⟩
abbrev S2x1024x128 : Shape := ⟨3, ![2, 1024, 128]⟩
abbrev S2000x256 : Shape := ⟨2, ![2000, 256]⟩
abbrev S2000x1 : Shape := ⟨2, ![2000, 1]⟩
abbrev S1x1024x128 : Shape := ⟨3, ![1, 1024, 128]⟩
abbrev S1024x128 : Shape := ⟨2, ![1024, 128]⟩
abbrev S2000x512 : Shape := ⟨2, ![2000, 512]⟩
abbrev S2000x128 : Shape := ⟨2, ![2000, 128]⟩
abbrev S1x1024 : Shape := ⟨2, ![1, 1024]⟩
abbrev S2000x1024 : Shape := ⟨2, ![2000, 1024]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S500000x256, .f32⟩
  | .hbm, ⟨1, _⟩ => ⟨S500000, .i32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S500000x1, .i32⟩
  | .hbm, ⟨9, _⟩ => ⟨S256x512, .bf16⟩
  | .hbm, ⟨10, _⟩ => ⟨S512x512, .bf16⟩
  | .hbm, ⟨11, _⟩ => ⟨S512x128, .bf16⟩
  | .hbm, ⟨12, _⟩ => ⟨S1x512, .f32⟩
  | .hbm, ⟨13, _⟩ => ⟨S1x512, .f32⟩
  | .hbm, ⟨14, _⟩ => ⟨S1x128, .f32⟩
  | .hbm, ⟨15, _⟩ => ⟨S2x1024x128, .f32⟩
  | .hbm, ⟨16, _⟩ => ⟨S_, .f32⟩
  | .hbm, ⟨17, _⟩ => ⟨S1024x128, .f32⟩
  | .local _ .vmem, ⟨0, _⟩ => ⟨S2000x256, .f32⟩
  | .local _ .vmem, ⟨1, _⟩ => ⟨S2000x256, .f32⟩
  | .local _ .vmem, ⟨2, _⟩ => ⟨S2000x1, .i32⟩
  | .local _ .vmem, ⟨3, _⟩ => ⟨S2000x1, .i32⟩
  | .local _ .vmem, ⟨4, _⟩ => ⟨S256x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S1x1024x128, .f32⟩
  | .local _ .vmem, ⟨11, _⟩ => ⟨S1x1024x128, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S500000_S500000x1 : S500000.ShapeCasts S500000x1
  bitsLt_bf16_f32 : FTy.bits .bf16 < FTy.bits .f32
  shapeCasts_S512_S1x512 : S512.ShapeCasts S1x512
  shapeCasts_S128_S1x128 : S128.ShapeCasts S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S2000x256_S2000x256_0_0 : ∀ a, (![0, 0] : Fin 2 → Nat) a + S2000x256.size a ≤ S2000x256.size a
  h_S2000x256 : 0 < S2000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x1024_d1_w32 : S1x1024.Iotas .tc 32 [1]
  broadcasts_S2000x1_S2000x1024 : S2000x1.Broadcasts S2000x1024
  broadcasts_S1x1024_S2000x1024 : S1x1024.Broadcasts S2000x1024
  natLt_1_32 : 1 < 32
  reducesTo_S2x1024x128_S1024x128_d0 : S2x1024x128.ReducesTo [0] S1024x128
  h_S_ : 0 < S_.numel
  dot_S2000x256_S256x512_S2000x512_1_0_0_1_n_n_wf : DotDims.WF S2000x256 S256x512 S2000x512 [1] [0] [0] [1] [] []
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  dot_S2000x1024_S2000x128_S1024x128_0_0_1_1_n_n_wf : DotDims.WF S2000x1024 S2000x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S500000x256.size a
  hwx0_0 : ∀ i : grid0.Coords, EltTy.bits .f32 = 32 ∨ (Rect.block (s := S500000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S500000x1.size a
  hwx0_1 : ∀ i : grid0.Coords, EltTy.bits .i32 = 32 ∨ (Rect.block (s := S500000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S2x1024x128.size a
  hwx0_8 : ∀ i : grid0.Coords, EltTy.bits .f32 = 32 ∨ (Rect.block (s := S2x1024x128) S1x1024x128.size (cc0_transform_8 i) (hinb0_8 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S500000x256 : Shape := ⟨2, ![500000, 256]⟩
abbrev S500000 : Shape := ⟨1, ![500000]⟩
abbrev S256x512 : Shape := ⟨2, ![256, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S500000x512 : Shape := ⟨2, ![500000, 512]⟩
abbrev S1x512 : Shape := ⟨2, ![1, 512]⟩
abbrev S_ : Shape := ⟨0, ![]⟩
abbrev S500000x128 : Shape := ⟨2, ![500000, 128]⟩
abbrev S1x128 : Shape := ⟨2, ![1, 128]⟩
abbrev S1024x128 : Shape := ⟨2, ![1024, 128]⟩
abbrev S500000x1 : Shape := ⟨2, ![500000, 1]⟩

abbrev nBuf : Space → Nat
  | .hbm => 39
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S500000, .i32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S500000x512, .f32⟩
  | .hbm, ⟨9, _⟩ => ⟨S1x512, .f32⟩
  | .hbm, ⟨10, _⟩ => ⟨S500000x512, .f32⟩
  | .hbm, ⟨11, _⟩ => ⟨S500000x512, .f32⟩
  | .hbm, ⟨12, _⟩ => ⟨S_, .f32⟩
  | .hbm, ⟨13, _⟩ => ⟨S500000x512, .f32⟩
  | .hbm, ⟨14, _⟩ => ⟨S500000x512, .f32⟩
  | .hbm, ⟨15, _⟩ => ⟨S500000x512, .f32⟩
  | .hbm, ⟨16, _⟩ => ⟨S1x512, .f32⟩
  | .hbm, ⟨17, _⟩ => ⟨S500000x512, .f32⟩
  | .hbm, ⟨18, _⟩ => ⟨S500000x512, .f32⟩
  | .hbm, ⟨19, _⟩ => ⟨S_, .f32⟩
  | .hbm, ⟨20, _⟩ => ⟨S500000x512, .f32⟩
  | .hbm, ⟨21, _⟩ => ⟨S500000x512, .f32⟩
  | .hbm, ⟨22, _⟩ => ⟨S500000x128, .f32⟩
  | .hbm, ⟨23, _⟩ => ⟨S1x128, .f32⟩
  | .hbm, ⟨24, _⟩ => ⟨S500000x128, .f32⟩
  | .hbm, ⟨25, _⟩ => ⟨S500000x128, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S_, .f32⟩
  | .hbm, ⟨32, _⟩ => ⟨S500000x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S1024x128, .f32⟩
  | .hbm, ⟨37, _⟩ => ⟨S500000x1, .i32⟩
  | .hbm, ⟨38, _⟩ => ⟨S1024x128, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S1024x128 : S_.BroadcastsInDim S1024x128 (![] : Fin 0 → Fin S1024x128.rank)
  bcast_S500000_S500000x1_0 : S500000.BroadcastsInDim S500000x1 (![0] : Fin 1 → Fin S500000x1.rank)
  dot_S500000x256_S256x512_S500000x512_1_0_0_1_n_n_wf : DotDims.WF S500000x256 S256x512 S500000x512 [1] [0] [0] [1] [] []
  dot_S500000x512_S512x512_S500000x512_1_0_0_1_n_n_wf : DotDims.WF S500000x512 S512x512 S500000x512 [1] [0] [0] [1] [] []
  dot_S500000x512_S512x128_S500000x128_1_0_0_1_n_n_wf : DotDims.WF S500000x512 S512x128 S500000x128 [1] [0] [0] [1] [] []
  scatter_S1024x128_S500000x1_S500000x128_1_0_0_1_wf : ScatterDims.WF S1024x128 S500000x1 S500000x128 [1] [0] [0] 1

variable [Facts₀]

def dot_S500000x256_S256x512_S500000x512_1_0_0_1_n_n : DotDims S500000x256 S256x512 S500000x512 where
  lhsContracting := [1]
  rhsContracting := [0]
  lhsNonContracting := [0]
  rhsNonContracting := [1]
  lhsBatch := []
  rhsBatch := []
  wf := dot_S500000x256_S256x512_S500000x512_1_0_0_1_n_n_wf
def dot_S500000x512_S512x512_S500000x512_1_0_0_1_n_n : DotDims S500000x512 S512x512 S500000x512 where
  lhsContracting := [1]
  rhsContracting := [0]
  lhsNonContracting := [0]
  rhsNonContracting := [1]
  lhsBatch := []
  rhsBatch := []
  wf := dot_S500000x512_S512x512_S500000x512_1_0_0_1_n_n_wf
def dot_S500000x512_S512x128_S500000x128_1_0_0_1_n_n : DotDims S500000x512 S512x128 S500000x128 where
  lhsContracting := [1]
  rhsContracting := [0]
  lhsNonContracting := [0]
  rhsNonContracting := [1]
  lhsBatch := []
  rhsBatch := []
  wf := dot_S500000x512_S512x128_S500000x128_1_0_0_1_n_n_wf
def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf

class Facts : Prop extends Facts₀ where

variable [Facts]
-- ==== Proof.RefRead.lean ====
/-
  The reference program's run and its stages read at an index: the generated run of the host program and the
  generated read-at-an-index lemmas, gathered under one import for the modules that state what the reference computes.
-/
import proofs.«412252_j21440476742361_2_alg».proof.Proof.Gen.ReferenceIdeal.Run
import proofs.«412252_j21440476742361_2_alg».proof.Proof.Gen.ReferenceIdeal.Read
-- ==== Proof.Spec.lean ====
/-
  What both programs compute, as one function of the argument arrays over the extended reals.

  A node's row x (256 features) goes through three affine layers, the first two followed by a maximum with zero:
      h1 j = max (sum_k x k * w1 k j + b1 j) 0,   h2 j = max (sum_k h1 k * w2 k j + b2 j) 0,
      y n  = sum_k h2 k * w3 k n + b3 n,
  and is gated: a n = logistic (y n) * y n.  Each node carries a 32-bit key; the result's row g (g < 1024) is the sum of
  the gated rows of the nodes whose key is the word g.  A node whose key is no such word adds to no row.
-/
import Idealize.ShloMosaic.PureOps.Ideal
import Idealize.ShloMosaic.Lib.ValueIdx

noncomputable section

namespace SegMlp

open Idealize.ShloMosaic Idealize.ShloMosaic.ValueIdx

/-- The floor of the two rectified layers: the word of the float zero, read as an extended real. -/
abbrev floor0 : EReal := Ideal.ofBits .f32 0x00000000#32

/-- One node's gated output at column `n`, from its feature row `x` and the three layers' weights and biases. -/
def rowAct (w1 : Fin 256 → Fin 512 → EReal) (b1 : Fin 512 → EReal) (w2 : Fin 512 → Fin 512 → EReal) (b2 : Fin 512 → EReal)
    (w3 : Fin 512 → Fin 128 → EReal) (b3 : Fin 128 → EReal) (x : Fin 256 → EReal) (n : Fin 128) : EReal :=
  Ideal.logistic
      ((∑ k : Fin 512, max ((∑ k' : Fin 512, max ((∑ k'' : Fin 256, x k'' * w1 k'' k') + b1 k') floor0 * w2 k' k) + b2 k) floor0 * w3 k n) + b3 n)
    * ((∑ k : Fin 512, max ((∑ k' : Fin 512, max ((∑ k'' : Fin 256, x k'' * w1 k'' k') + b1 k') floor0 * w2 k' k) + b2 k) floor0 * w3 k n) + b3 n)

/-- A node with key `key` adds `a` to row `g` exactly when its key is the word `g`. -/
def pick (key : BitVec 32) (g : Fin 1024) (a : EReal) : EReal := if key = BitVec.ofNat 32 g.val then a else 0

/-- Row `g`, column `n` of the per-key sums of `N` nodes' gated rows `A`. -/
def segSum {N : Nat} (key : Fin N → BitVec 32) (A : Fin N → Fin 128 → EReal) (g : Fin 1024) (n : Fin 128) : EReal :=
  ∑ R : Fin N, pick (key R) g (A R n)

/-- Node `R`'s gated row, from the whole argument arrays. -/
def nodeAct {N : Nat} (X : (⟨2, ![N, 256]⟩ : Shape).Idx → EReal)
    (W1 : (⟨2, ![256, 512]⟩ : Shape).Idx → EReal) (B1 : (⟨1, ![512]⟩ : Shape).Idx → EReal)
    (W2 : (⟨2, ![512, 512]⟩ : Shape).Idx → EReal) (B2 : (⟨1, ![512]⟩ : Shape).Idx → EReal)
    (W3 : (⟨2, ![512, 128]⟩ : Shape).Idx → EReal) (B3 : (⟨1, ![128]⟩ : Shape).Idx → EReal) (R : Fin N) (n : Fin 128) : EReal :=
  rowAct (fun k j => W1 (ix2 k j)) (fun j => B1 (ix1 j)) (fun k j => W2 (ix2 k j)) (fun j => B2 (ix1 j))
    (fun k j => W3 (ix2 k j)) (fun j => B3 (ix1 j)) (fun k => X (ix2 R k)) n

/-- THE RESULT: the [1024, 128] array of per-key sums of the 500000 nodes' gated rows. -/
def result (X : (⟨2, ![500000, 256]⟩ : Shape).Idx → EReal) (K : (⟨1, ![500000]⟩ : Shape).Idx → BitVec 32)
    (W1 : (⟨2, ![256, 512]⟩ : Shape).Idx → EReal) (B1 : (⟨1, ![512]⟩ : Shape).Idx → EReal)
    (W2 : (⟨2, ![512, 512]⟩ : Shape).Idx → EReal) (B2 : (⟨1, ![512]⟩ : Shape).Idx → EReal)
    (W3 : (⟨2, ![512, 128]⟩ : Shape).Idx → EReal) (B3 : (⟨1, ![128]⟩ : Shape).Idx → EReal) :
    (⟨2, ![1024, 128]⟩ : Shape).Idx → EReal :=
  fun i => segSum (fun R : Fin 500000 => K (ix1 R)) (nodeAct X W1 B1 W2 B2 W3 B3) (i 0) (i 1)

theorem result_apply (X : (⟨2, ![500000, 256]⟩ : Shape).Idx → EReal) (K : (⟨1, ![500000]⟩ : Shape).Idx → BitVec 32)
    (W1 : (⟨2, ![256, 512]⟩ : Shape).Idx → EReal) (B1 : (⟨1, ![512]⟩ : Shape).Idx → EReal)
    (W2 : (⟨2, ![512, 512]⟩ : Shape).Idx → EReal) (B2 : (⟨1, ![512]⟩ : Shape).Idx → EReal)
    (W3 : (⟨2, ![512, 128]⟩ : Shape).Idx → EReal) (B3 : (⟨1, ![128]⟩ : Shape).Idx → EReal) (g : Fin 1024) (n : Fin 128) :
    result X K W1 B1 W2 B2 W3 B3 (ix2 g n) = segSum (fun R : Fin 500000 => K (ix1 R)) (nodeAct X W1 B1 W2 B2 W3 B3) g n := rfl

end SegMlp

end
-- ==== Proof.LibSegScatter.lean ====
/-
  An accumulating scatter of rows by one key per row, read at an index.

  The operand is a [G, C] array, the scatter indices an [N, 1] array of integer words (one key per update row), the
  updates an [N, C] array; update row R is added to operand row key(R), the key read as a signed number, and an update
  whose key is not a row number of the operand is dropped.  So the result at (g, n) is the operand there plus the sum,
  over the update rows R whose key is g, of the update at (R, n).
-/
import Idealize.ShloMosaic.PureOps.Ideal
import Idealize.ShloMosaic.Lib.ValueIdx

namespace SegScatter

open Idealize.ShloMosaic Idealize.ShloMosaic.ValueIdx

variable {G N C : Nat}

/-- A 32-bit word read signed is the small number `g` exactly when it is the word `g`. -/
theorem toInt_eq_iff (w : BitVec 32) (g : Nat) (hg : g < 2 ^ 31) : w.toInt = (g : Int) ↔ w = BitVec.ofNat 32 g := by
  constructor
  · -- a signed reading that is a natural below 2^31 is the unsigned reading: the other branch is negative
    intro h
    apply BitVec.eq_of_toNat_eq
    rw [BitVec.toNat_ofNat]
    rw [BitVec.toInt_eq_toNat_cond] at h
    have := w.isLt
    split at h <;> omega
  · -- the word `g` has unsigned value `g`, below 2^31, so its signed reading is `g` too
    rintro rfl
    rw [BitVec.toInt_eq_toNat_cond, BitVec.toNat_ofNat]
    have : g % 2 ^ 32 = g := Nat.mod_eq_of_lt (by omega)
    rw [this]
    split <;> omega

/-! ## The dimension numbers of a scatter of rows, read axis by axis

Update window axis 1, inserted operand axis 0, the one component of a start index going to operand axis 0, the index
vector on axis 1 of the scatter indices.  For the update index `(R, n')`: on operand axis 0 the window starts at the
key of row `R` and has the one coordinate 0; on operand axis 1 it starts at 0 and has the coordinate `n'`. -/

section Dims

variable (wf : ScatterDims.WF ⟨2, ![G, C]⟩ ⟨2, ![N, 1]⟩ ⟨2, ![N, C]⟩ [1] [0] [0] 1)

/-- The dimension numbers of a scatter of rows by one key per row. -/
abbrev rowDims : ScatterDims ⟨2, ![G, C]⟩ ⟨2, ![N, 1]⟩ ⟨2, ![N, C]⟩ := ⟨[1], [0], [0], 1, wf⟩

/-- The scatter-indices index read for update index `(R, n')` is `(R, 0)`: the update's row on the kept axis, the one
    component on the index vector's axis. -/
theorem siIdx_eq (R : Fin N) (n' : Fin C) (c : Fin (rowDims wf).scatterDimsToOperandDims.length) :
    (rowDims wf).siIdx (ix2 R n') c = ix2 R (0 : Fin 1) := by
  funext b
  refine Fin.ext ?_
  match b with
  | ⟨0, _⟩ => rfl
  | ⟨1, _⟩ =>
    -- the start index has one component, so `c` is 0
    have := c.isLt
    show c.val = 0
    simpa using this

/-- On operand axis 0 the window starts at the key of the update's row, read signed. -/
theorem start0 {w : Nat} (idx : IVec ⟨2, ![N, 1]⟩ w) (R : Fin N) (n' : Fin C) :
    (rowDims wf).start (ix2 R n') idx (0 : Fin 2) = (idx (ix2 R (0 : Fin 1))).toInt := by
  unfold ScatterDims.start
  rw [dif_pos (List.mem_singleton.mpr rfl)]
  rw [siIdx_eq]

/-- Operand axis 1 is not named by the map: the window starts at 0 there. -/
theorem start1 {w : Nat} (idx : IVec ⟨2, ![N, 1]⟩ w) (R : Fin N) (n' : Fin C) :
    (rowDims wf).start (ix2 R n') idx (1 : Fin 2) = 0 := by
  unfold ScatterDims.start
  exact dif_neg (show (1 : Fin 2) ∉ ([0] : List (Fin 2)) by decide)

/-- Operand axis 0 is an inserted axis: the window coordinate is 0 there. -/
theorem window0 (R : Fin N) (n' : Fin C) : (rowDims wf).window (ix2 R n') (0 : Fin 2) = 0 := by
  unfold ScatterDims.window
  exact dif_neg (show (0 : Fin 2) ∉ (List.finRange 2).filter (· ∉ ([0] : List (Fin 2))) by decide)

/-- Operand axis 1 is the one kept axis, and the update's window axis 1 goes to it: the window coordinate is `n'`. -/
theorem window1 (R : Fin N) (n' : Fin C) : (rowDims wf).window (ix2 R n') (1 : Fin 2) = n'.val := by
  unfold ScatterDims.window
  exact (dif_pos (show (1 : Fin 2) ∈ (List.finRange 2).filter (· ∉ ([0] : List (Fin 2))) by decide)).trans rfl

/-- Update index `(R, n')` lands at `(g, n)` exactly when row `R`'s key, read signed, is `g` and `n' = n`: the
    landing place is (key + 0, 0 + n'), and for a key that is a row number both range conditions hold. -/
theorem resultIdx?_eq_some_iff {w : Nat} (idx : IVec ⟨2, ![N, 1]⟩ w) (R : Fin N) (n' : Fin C) (g : Fin G) (n : Fin C) :
    (rowDims wf).resultIdx? (ix2 R n') idx = some (ix2 g n)
      ↔ (idx (ix2 R (0 : Fin 1))).toInt = (g.val : Int) ∧ n' = n := by
  unfold ScatterDims.resultIdx?
  constructor
  · intro h
    split at h
    · rename_i hc
      -- inside the operand: compare the two coordinates of the landing place with `(g, n)`
      have h' := Option.some.inj h
      have h0 : ((rowDims wf).start (ix2 R n') idx (0 : Fin 2) + (rowDims wf).window (ix2 R n') (0 : Fin 2)).toNat = g.val :=
        congrArg (fun f => (f (0 : Fin 2)).val) h'
      have h1 : ((rowDims wf).start (ix2 R n') idx (1 : Fin 2) + (rowDims wf).window (ix2 R n') (1 : Fin 2)).toNat = n.val :=
        congrArg (fun f => (f (1 : Fin 2)).val) h'
      have hc0 := (hc (0 : Fin 2)).1
      rw [start0, window0] at h0 hc0
      rw [start1, window1] at h1
      exact ⟨by omega, Fin.ext (by omega)⟩
    · -- outside the operand nothing lands
      exact absurd h (by simp)
  · rintro ⟨hg, rfl⟩
    -- the landing place (g, n') is inside the operand
    have H : ∀ a, 0 ≤ (rowDims wf).start (ix2 R n') idx a + (rowDims wf).window (ix2 R n') a
        ∧ (rowDims wf).start (ix2 R n') idx a + (rowDims wf).window (ix2 R n') a
          < ((⟨2, ![G, C]⟩ : Shape).size a : Int) := by
      intro a
      match a with
      | ⟨0, _⟩ =>
        show 0 ≤ (rowDims wf).start (ix2 R n') idx (0 : Fin 2) + (rowDims wf).window (ix2 R n') (0 : Fin 2)
          ∧ (rowDims wf).start (ix2 R n') idx (0 : Fin 2) + (rowDims wf).window (ix2 R n') (0 : Fin 2) < (G : Int)
        rw [start0, window0, hg]
        have := g.isLt
        omega
      | ⟨1, _⟩ =>
        show 0 ≤ (rowDims wf).start (ix2 R n') idx (1 : Fin 2) + (rowDims wf).window (ix2 R n') (1 : Fin 2)
          ∧ (rowDims wf).start (ix2 R n') idx (1 : Fin 2) + (rowDims wf).window (ix2 R n') (1 : Fin 2) < (C : Int)
        rw [start1, window1]
        have := n'.isLt
        omega
    rw [dif_pos H]
    refine congrArg some (funext fun a => Fin.ext ?_)
    match a with
    | ⟨0, _⟩ =>
      show ((rowDims wf).start (ix2 R n') idx (0 : Fin 2) + (rowDims wf).window (ix2 R n') (0 : Fin 2)).toNat = g.val
      rw [start0, window0, hg]
      omega
    | ⟨1, _⟩ =>
      show ((rowDims wf).start (ix2 R n') idx (1 : Fin 2) + (rowDims wf).window (ix2 R n') (1 : Fin 2)).toNat = n'.val
      rw [start1, window1]
      omega

end Dims

/-- The accumulating scatter of rows by key, at `(g, n)`: the operand there plus the updates of the rows whose signed key is `g`. -/
theorem hostScatterAdd_apply {w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hiv : d.indexVectorDim = 1)
    (x : (⟨2, ![G, C]⟩ : Shape).Idx → EReal) (idx : IVec ⟨2, ![N, 1]⟩ w) (upd : (⟨2, ![N, C]⟩ : Shape).Idx → EReal)
    (g : Fin G) (n : Fin C) :
    Ideal.hostScatterAdd d x idx upd (ix2 g n)
      = x (ix2 g n) + ∑ R : Fin N, if (idx (ix2 R (0 : Fin 1))).toInt = (g.val : Int) then upd (ix2 R n) else 0 := by
  -- the four lists are the literal ones
  obtain ⟨uw, iw, sd, iv, wf⟩ := d
  dsimp only at huw hiw hsd hiv
  subst huw hiw hsd hiv
  unfold Ideal.hostScatterAdd
  refine congrArg (x (ix2 g n) + ·) ?_
  -- the sum over the update indices that land at (g, n), as a double sum over rows and columns of an `if`
  rw [Finset.sum_filter, sum_idx2]
  refine Finset.sum_congr rfl fun R _ => ?_
  have hiff : ∀ n' : Fin C, (rowDims wf).resultIdx? (ix2 R n') idx = some (ix2 g n)
      ↔ (idx (ix2 R (0 : Fin 1))).toInt = (g.val : Int) ∧ n' = n := fun n' => resultIdx?_eq_some_iff wf idx R n' g n
  simp only [hiff]
  -- in row R only column n can land there, and it does exactly when the row's key is g
  by_cases h : (idx (ix2 R (0 : Fin 1))).toInt = (g.val : Int)
  · simp only [h, true_and, if_true]
    rw [Finset.sum_ite_eq' Finset.univ n (fun n' => upd (ix2 R n'))]
    simp
  · simp only [h, false_and, if_false]
    exact Finset.sum_const_zero

end SegScatter
-- ==== Proof.RefValue.lean ====
/-
  The reference program's result is the specification.

  Stage by stage: the three host matrix products are plain sums over the contracted axis, the biases are broadcast
  along the rows, the rectifier is a maximum with the zero word, and jax's spelling of the sigmoid — one over one plus
  the exponential of the negation — is the logistic function on the extended reals; so the update rows of the final
  scatter are the nodes' gated rows.  The scatter adds update row R to the result row named by R's key, read signed,
  and drops a row whose key names no result row: the per-key sum of the specification.
-/
import proofs.«412252_j21440476742361_2_alg».proof.Proof.RefRead
import proofs.«412252_j21440476742361_2_alg».proof.Proof.Spec
import proofs.«412252_j21440476742361_2_alg».proof.Proof.LibSegScatter
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The first product at a node and a column: the plain sum over the 256 features. -/
theorem v0_ix (x0 : (⟨S500000x256, .f32⟩ : BufTy).Contents (Elt Ideal)) (x2 : (⟨S256x512, .f32⟩ : BufTy).Contents (Elt Ideal))
    (R : Fin 500000) (j : Fin 512) :
    val_main_v0 (F := Ideal) x0 x2 (ix2 R j) = ∑ k : Fin 256, x0 (ix2 R k) * x2 (ix2 k j) := by
  refine (val_main_v0_apply x0 x2 (ix2 R j)).trans ?_
  refine Finset.sum_congr rfl fun k _ => ?_
  have el : lidx_main_v0 (ix2 R j) k = ix2 R k := funext fun a => by match a with | ⟨0, _⟩ => rfl | ⟨1, _⟩ => rfl
  have er : ridx_main_v0 (ix2 R j) k = ix2 k j := funext fun a => by match a with | ⟨0, _⟩ => rfl | ⟨1, _⟩ => rfl
  rw [el, er]

/-- The first bias, broadcast along the rows. -/
theorem v2_ix (x3 : (⟨S512, .f32⟩ : BufTy).Contents (Elt Ideal)) (R : Fin 500000) (j : Fin 512) :
    val_main_v2 (F := Ideal) x3 (ix2 R j) = x3 (ix1 j) := by
  refine (val_main_v2_apply x3 (ix2 R j)).trans ?_
  refine (val_main_v1_apply x3 _).trans ?_
  have e : idx_main_v1 (idx_main_v2 (ix2 R j)) = ix1 j := funext fun a => by match a with | ⟨0, _⟩ => rfl
  rw [e]

/-- The floor of the first rectifier is the zero word at every index. -/
theorem call0_ix (i : S500000x512.Idx) : val_main_call0_v0 (F := Ideal) i = SegMlp.floor0 := by
  refine (val_main_call0_v0_apply i).trans ?_
  exact val_main_call0_cst_apply _

/-- The first rectified layer at a node and a column. -/
theorem v4_ix (x0 : (⟨S500000x256, .f32⟩ : BufTy).Contents (Elt Ideal)) (x2 : (⟨S256x512, .f32⟩ : BufTy).Contents (Elt Ideal))
    (x3 : (⟨S512, .f32⟩ : BufTy).Contents (Elt Ideal)) (R : Fin 500000) (j : Fin 512) :
    val_main_v4 (F := Ideal) x0 x2 x3 (ix2 R j)
      = max ((∑ k : Fin 256, x0 (ix2 R k) * x2 (ix2 k j)) + x3 (ix1 j)) SegMlp.floor0 := by
  refine (val_main_v4_apply x0 x2 x3 (ix2 R j)).trans ?_
  rw [val_main_v3_apply, call0_ix, v0_ix, v2_ix]
  rfl

/-- The floor of the second rectifier is the zero word at every index. -/
theorem call1_ix (i : S500000x512.Idx) : val_main_call1_v0 (F := Ideal) i = SegMlp.floor0 := by
  refine (val_main_call1_v0_apply i).trans ?_
  exact val_main_call1_cst_apply _

/-- The second bias, broadcast along the rows. -/
theorem v7_ix (x5 : (⟨S512, .f32⟩ : BufTy).Contents (Elt Ideal)) (R : Fin 500000) (j : Fin 512) :
    val_main_v7 (F := Ideal) x5 (ix2 R j) = x5 (ix1 j) := by
  refine (val_main_v7_apply x5 (ix2 R j)).trans ?_
  refine (val_main_v6_apply x5 _).trans ?_
  have e : idx_main_v6 (idx_main_v7 (ix2 R j)) = ix1 j := funext fun a => by match a with | ⟨0, _⟩ => rfl
  rw [e]

/-- The second product at a node and a column: the sum over the first layer's 512 columns. -/
theorem v5_ix (x0 : (⟨S500000x256, .f32⟩ : BufTy).Contents (Elt Ideal)) (x2 : (⟨S256x512, .f32⟩ : BufTy).Contents (Elt Ideal))
    (x3 : (⟨S512, .f32⟩ : BufTy).Contents (Elt Ideal)) (x4 : (⟨S512x512, .f32⟩ : BufTy).Contents (Elt Ideal))
    (R : Fin 500000) (j : Fin 512) :
    val_main_v5 (F := Ideal) x0 x2 x3 x4 (ix2 R j)
      = ∑ k : Fin 512, max ((∑ k' : Fin 256, x0 (ix2 R k') * x2 (ix2 k' k)) + x3 (ix1 k)) SegMlp.floor0 * x4 (ix2 k j) := by
  refine (val_main_v5_apply x0 x2 x3 x4 (ix2 R j)).trans ?_
  refine Finset.sum_congr rfl fun k _ => ?_
  have el : lidx_main_v5 (ix2 R j) k = ix2 R k := funext fun a => by match a with | ⟨0, _⟩ => rfl | ⟨1, _⟩ => rfl
  have er : ridx_main_v5 (ix2 R j) k = ix2 k j := funext fun a => by match a with | ⟨0, _⟩ => rfl | ⟨1, _⟩ => rfl
  rw [el, er, v4_ix]

/-- The second rectified layer at a node and a column. -/
theorem v9_ix (x0 : (⟨S500000x256, .f32⟩ : BufTy).Contents (Elt Ideal)) (x2 : (⟨S256x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (R : Fin 500000) (j : Fin 512) :
    val_main_v9 (F := Ideal) x0 x2 x3 x4 x5 (ix2 R j)
      = max ((∑ k : Fin 512, max ((∑ k' : Fin 256, x0 (ix2 R k') * x2 (ix2 k' k)) + x3 (ix1 k)) SegMlp.floor0 * x4 (ix2 k j))
          + x5 (ix1 j)) SegMlp.floor0 := by
  refine (val_main_v9_apply x0 x2 x3 x4 x5 (ix2 R j)).trans ?_
  rw [val_main_v8_apply, call1_ix, v5_ix, v7_ix]
  rfl

/-- The third bias, broadcast along the rows. -/
theorem v12_ix (x7 : (⟨S128, .f32⟩ : BufTy).Contents (Elt Ideal)) (R : Fin 500000) (n : Fin 128) :
    val_main_v12 (F := Ideal) x7 (ix2 R n) = x7 (ix1 n) := by
  refine (val_main_v12_apply x7 (ix2 R n)).trans ?_
  refine (val_main_v11_apply x7 _).trans ?_
  have e : idx_main_v11 (idx_main_v12 (ix2 R n)) = ix1 n := funext fun a => by match a with | ⟨0, _⟩ => rfl
  rw [e]

/-- The third affine layer at a node and a column: the value the gate is applied to. -/
theorem v13_ix (x0 : (⟨S500000x256, .f32⟩ : BufTy).Contents (Elt Ideal)) (x2 : (⟨S256x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) (R : Fin 500000) (n : Fin 128) :
    val_main_v13 (F := Ideal) x0 x2 x3 x4 x5 x6 x7 (ix2 R n)
      = (∑ k : Fin 512, max ((∑ k' : Fin 512, max ((∑ k'' : Fin 256, x0 (ix2 R k'') * x2 (ix2 k'' k')) + x3 (ix1 k')) SegMlp.floor0
            * x4 (ix2 k' k)) + x5 (ix1 k)) SegMlp.floor0 * x6 (ix2 k n)) + x7 (ix1 n) := by
  refine (val_main_v13_apply x0 x2 x3 x4 x5 x6 x7 (ix2 R n)).trans ?_
  rw [v12_ix, val_main_v10_apply]
  refine congrArg (· + x7 (ix1 n)) ?_
  refine Finset.sum_congr rfl fun k _ => ?_
  have el : lidx_main_v10 (ix2 R n) k = ix2 R k := funext fun a => by match a with | ⟨0, _⟩ => rfl | ⟨1, _⟩ => rfl
  have er : ridx_main_v10 (ix2 R n) k = ix2 k n := funext fun a => by match a with | ⟨0, _⟩ => rfl | ⟨1, _⟩ => rfl
  rw [el, er, v9_ix]

/-- The word of the float one, broadcast, is the extended real one. -/
theorem v16_ix (i : S500000x128.Idx) : val_main_v16 (F := Ideal) i = 1 := by
  refine (val_main_v16_apply i).trans ?_
  refine (val_main_cst_apply _).trans ?_
  exact Ideal.ofBits_one_f32

/-- The dividend of the gate is the same word of the float one. -/
theorem v18_ix (i : S500000x128.Idx) : val_main_v18 (F := Ideal) i = 1 := by
  refine (val_main_v18_apply i).trans ?_
  refine (val_main_cst_0_apply _).trans ?_
  exact Ideal.ofBits_one_f32

/-- The gate: one over one plus the exponential of the negation is the logistic function, so the product with the
    value itself is the gated value. -/
theorem v20_ix (x0 : (⟨S500000x256, .f32⟩ : BufTy).Contents (Elt Ideal)) (x2 : (⟨S256x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) (i : S500000x128.Idx) :
    val_main_v20 (F := Ideal) x0 x2 x3 x4 x5 x6 x7 i
      = Ideal.logistic (val_main_v13 (F := Ideal) x0 x2 x3 x4 x5 x6 x7 i) * val_main_v13 (F := Ideal) x0 x2 x3 x4 x5 x6 x7 i := by
  refine (val_main_v20_apply x0 x2 x3 x4 x5 x6 x7 i).trans ?_
  rw [val_main_v19_apply, val_main_v17_apply, val_main_v15_apply, val_main_v14_apply, v16_ix, v18_ix]
  rfl

/-- The scatter's update rows are the nodes' gated rows. -/
theorem act_apply (x0 : (⟨S500000x256, .f32⟩ : BufTy).Contents (Elt Ideal)) (x2 : (⟨S256x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) (R : Fin 500000) (n : Fin 128) :
    val_main_v20 (F := Ideal) x0 x2 x3 x4 x5 x6 x7 (ix2 R n) = SegMlp.nodeAct x0 x2 x3 x4 x5 x6 x7 R n := by
  rw [v20_ix, v13_ix]
  rfl

/-- The reference's last stage is the accumulating scatter of the gated rows, by key, into the zero array. -/
theorem v23_eq (x0 : (⟨S500000x256, .f32⟩ : BufTy).Contents (Elt Ideal)) (x1 : (⟨S500000, .i32⟩ : BufTy).Contents (Elt Ideal))
    (x2 : (⟨S256x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) :
    val_main_v23 (F := Ideal) x0 x1 x2 x3 x4 x5 x6 x7
      = Ideal.hostScatterAdd scatter_S1024x128_S500000x1_S500000x128_1_0_0_1 (val_main_v21 (F := Ideal)) (val_main_v22 (F := Ideal) x1)
          (val_main_v20 (F := Ideal) x0 x2 x3 x4 x5 x6 x7) := rfl

/-- The scatter's operand is the zero array. -/
theorem v21_ix (i : S1024x128.Idx) : val_main_v21 (F := Ideal) i = 0 := by
  refine (val_main_v21_apply i).trans ?_
  refine (val_main_cst_1_apply _).trans ?_
  exact Ideal.ofBits_zero_f32

/-- Update row R's key is the R-th key word. -/
theorem v22_ix (x1 : (⟨S500000, .i32⟩ : BufTy).Contents (Elt Ideal)) (R : Fin 500000) :
    val_main_v22 (F := Ideal) x1 (ix2 R (0 : Fin 1)) = x1 (ix1 R) := by
  refine (val_main_v22_apply x1 _).trans ?_
  have e : idx_main_v22 (ix2 R (0 : Fin 1)) = ix1 R := funext fun a => by match a with | ⟨0, _⟩ => rfl
  rw [e]

/-- The reference's result array is the specification's. -/
theorem result_eq (x0 : (⟨S500000x256, .f32⟩ : BufTy).Contents (Elt Ideal)) (x1 : (⟨S500000, .i32⟩ : BufTy).Contents (Elt Ideal))
    (x2 : (⟨S256x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) :
    val_main_v23 (F := Ideal) x0 x1 x2 x3 x4 x5 x6 x7 = SegMlp.result x0 x1 x2 x3 x4 x5 x6 x7 := by
  funext i
  obtain ⟨g, n, rfl⟩ : ∃ (g : Fin 1024) (n : Fin 128), i = ix2 g n := ⟨i 0, i 1, ValueIdx.eq_ix2 i⟩
  refine (congrFun (v23_eq x0 x1 x2 x3 x4 x5 x6 x7) (ix2 g n)).trans ?_
  -- the scatter at (g, n): the operand there plus the updates of the rows whose signed key is g
  refine (SegScatter.hostScatterAdd_apply scatter_S1024x128_S500000x1_S500000x128_1_0_0_1 rfl rfl rfl rfl
    (val_main_v21 (F := Ideal)) (val_main_v22 (F := Ideal) x1) (val_main_v20 (F := Ideal) x0 x2 x3 x4 x5 x6 x7) g n).trans ?_
  rw [v21_ix, zero_add, SegMlp.result_apply]
  unfold SegMlp.segSum SegMlp.pick
  refine Finset.sum_congr rfl fun R _ => ?_
  -- row R's key is the R-th key word; its update row is node R's gated row
  rw [v22_ix, act_apply]
  -- read signed, a word is the row number g < 1024 exactly when it is the word g
  exact if_congr (SegScatter.toInt_eq_iff _ _ (lt_trans g.isLt (by norm_num))) rfl rfl

end Cert.ReferenceIdeal.RefValue

end
-- ==== Proof.CaseValue.lean ====
/-
  What one grid step leaves in the accumulator block, in each of its two cases.

  A step that is not the first of its run of 125 reads the block as the step before left it and stores it back with
  this step's per-key sums added: the stored value is the body's accumulate expression of the step's input blocks
  and of what the block held.  The first step of a run first stores the zero block, reads it back, and then does the
  same: the stored value is the accumulate expression over the zero block.  In both cases one store covers the whole
  block, so what the block holds afterwards is that store's value, the loads of whole buffers being their contents.
-/
import proofs.«412252_j21440476742361_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.CaseValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a run: the block ends at the accumulate expression over what it held. -/
theorem out_B (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S256x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S1x1024x128 .f32) (harg10 : arg10.IsWhole) (hc0 : ¬cond0_0 i) (x0 : Vec F S2000x256 .f32) (x1 : Vec F S2000x1 .i32) (x2 : Vec F S256x512 .bf16) (x3 : Vec F S1x512 .f32) (x4 : Vec F S512x512 .bf16) (x5 : Vec F S1x512 .f32) (x6 : Vec F S512x128 .bf16) (x7 : Vec F S1x128 .f32) (xo8 : Vec F S1x1024x128 .f32) :
    out0_B_8 c i arg2 harg2 arg3 harg3 arg4 harg4 arg5 harg5 arg6 harg6 arg7 harg7 arg8 harg8 arg9 harg9 arg10 harg10 hc0 x0 x1 x2 x3 x4 x5 x6 x7 xo8 = k0_pay1 (k0_pay3 x0 x2 x3 x4 x5 x6 x7) x1 xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 x4 x5 x6 x7 xo8)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, View.ld_unit_zero (S := S2000x256) hz2,
    View.ld_unit_zero (S := S2000x1) hz2, View.ld_unit_zero (S := S256x512) hz2, View.ld_unit_zero (S := S1x512) hz2,
    View.ld_unit_zero (S := S512x512) hz2, View.ld_unit_zero (S := S512x128) hz2, View.ld_unit_zero (S := S1x128) hz2,
    View.ld_unit_zero (S := S1x1024x128) hz3]

/-- The first step of a run: the block ends at the accumulate expression over the zero block. -/
theorem out_A (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S256x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x128 .bf16) (harg8 : arg8.IsWhole) (arg9 : Memref sig .tc .vmem S1x128 .f32) (harg9 : arg9.IsWhole) (arg10 : Memref sig .tc .vmem S1x1024x128 .f32) (harg10 : arg10.IsWhole) (hc0 : cond0_0 i) (x0 : Vec F S2000x256 .f32) (x1 : Vec F S2000x1 .i32) (x2 : Vec F S256x512 .bf16) (x3 : Vec F S1x512 .f32) (x4 : Vec F S512x512 .bf16) (x5 : Vec F S1x512 .f32) (x6 : Vec F S512x128 .bf16) (x7 : Vec F S1x128 .f32) :
    out0_A_8 c i arg2 harg2 arg3 harg3 arg4 harg4 arg5 harg5 arg6 harg6 arg7 harg7 arg8 harg8 arg9 harg9 arg10 harg10 hc0 x0 x1 x2 x3 x4 x5 x6 x7 = k0_pay1 (k0_pay3 x0 x2 x3 x4 x5 x6 x7) x1 (k0_pay2 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S1x1024x128) hz3, View.readCov_unit_zero (S := S1x1024x128) _ hz3]
  simp only [View.readAt_eq_ld, harg2.read_unread, harg3.read_unread, harg4.read_unread, harg5.read_unread, harg6.read_unread,
    harg7.read_unread, harg8.read_unread, harg9.read_unread, harg10.read_unread, View.ld_unit_zero (S := S2000x256) hz2,
    View.ld_unit_zero (S := S2000x1) hz2, View.ld_unit_zero (S := S256x512) hz2, View.ld_unit_zero (S := S1x512) hz2,
    View.ld_unit_zero (S := S512x512) hz2, View.ld_unit_zero (S := S512x128) hz2, View.ld_unit_zero (S := S1x128) hz2,
    View.ld_unit_zero (S := S1x1024x128) hz3]

end Cert.KernelIdeal.CaseValue

end
-- ==== Proof.Blocks.lean ====
/-
  The blocks the pipeline hands the kernel body, read as the program's argument arrays.

  The grid's 250 steps run in order; step t is handed rows 2000 t … 2000 t + 1999 of the node features and of the keys
  (the keys through the host's reshape of the key vector to a column, which moves no entry), and at every step the
  whole of each layer's weights (through the host's change of float format, which over the extended reals changes
  nothing) and bias (through the host's reshape of the bias vector to a row).
-/
import proofs.«412252_j21440476742361_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

theorem lt250 (t : Fin cfg0.N) : t.val < 250 := lt_of_lt_of_eq t.isLt (show cfg0.N = 250 from N_0)

/-- The node that row `r` of the grid step `t`'s block of nodes is: blocks of 2000 consecutive nodes, in step order. -/
def row (t : Fin cfg0.N) (r : Fin 2000) : Fin 500000 := ⟨2000 * t.val + r.val, by have := lt250 t; have := r.isLt; omega⟩

theorem row_val (t : Fin cfg0.N) (r : Fin 2000) : (row t r).val = 2000 * t.val + r.val := rfl

/-! ## The arrays the host lines before the launch make: the keys as a column, the weights converted, the biases as rows -/

theorem V_v0 (c : Dev nD) : (V m c main_v0 : S500000x1.Idx → BitVec 32) = shapeCast S500000x1 (m ((c : Thread nD τ).loc main_arg1)) shapeCasts_S500000_S500000x1 := by
  show StableHlo.after hostOps0 (fun b => m (c, b)) (Proc.devRef .tc main_v0) = _
  after_results
  rfl

theorem V_v1 (c : Dev nD) : (V m c main_v1 : S256x512.Idx → EReal) = m ((c : Thread nD τ).loc main_arg2) := by
  show StableHlo.after hostOps0 (fun b => m (c, b)) (Proc.devRef .tc main_v1) = _
  after_results
  rfl

theorem V_v2 (c : Dev nD) : (V m c main_v2 : S512x512.Idx → EReal) = m ((c : Thread nD τ).loc main_arg4) := by
  show StableHlo.after hostOps0 (fun b => m (c, b)) (Proc.devRef .tc main_v2) = _
  after_results
  rfl

theorem V_v3 (c : Dev nD) : (V m c main_v3 : S512x128.Idx → EReal) = m ((c : Thread nD τ).loc main_arg6) := by
  show StableHlo.after hostOps0 (fun b => m (c, b)) (Proc.devRef .tc main_v3) = _
  after_results
  rfl

theorem V_v4 (c : Dev nD) : (V m c main_v4 : S1x512.Idx → EReal) = shapeCast S1x512 (m ((c : Thread nD τ).loc main_arg3)) shapeCasts_S512_S1x512 := by
  show StableHlo.after hostOps0 (fun b => m (c, b)) (Proc.devRef .tc main_v4) = _
  after_results
  rfl

theorem V_v5 (c : Dev nD) : (V m c main_v5 : S1x512.Idx → EReal) = shapeCast S1x512 (m ((c : Thread nD τ).loc main_arg5)) shapeCasts_S512_S1x512 := by
  show StableHlo.after hostOps0 (fun b => m (c, b)) (Proc.devRef .tc main_v5) = _
  after_results
  rfl

theorem V_v6 (c : Dev nD) : (V m c main_v6 : S1x128.Idx → EReal) = shapeCast S1x128 (m ((c : Thread nD τ).loc main_arg7)) shapeCasts_S128_S1x128 := by
  show StableHlo.after hostOps0 (fun b => m (c, b)) (Proc.devRef .tc main_v6) = _
  after_results
  rfl

/-! ## Where each window's block sits: the two streamed windows move one block a step, the others stay -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The blocks, each under a name of its literal type, read as the argument arrays -/

/-- Step `t`'s block of node features. -/
abbrev xblk (c : Dev nD) (t : Fin cfg0.N) : Vec Ideal S2000x256 .f32 := iblk m c 0 t
/-- Step `t`'s block of keys, a column. -/
abbrev kblk (c : Dev nD) (t : Fin cfg0.N) : Vec Ideal S2000x1 .i32 := iblk m c 1 t
/-- The three layers' weights and biases, the same whole arrays at every step. -/
abbrev w1blk (c : Dev nD) (t : Fin cfg0.N) : Vec Ideal S256x512 .bf16 := iblk m c 2 t
abbrev b1blk (c : Dev nD) (t : Fin cfg0.N) : Vec Ideal S1x512 .f32 := iblk m c 3 t
abbrev w2blk (c : Dev nD) (t : Fin cfg0.N) : Vec Ideal S512x512 .bf16 := iblk m c 4 t
abbrev b2blk (c : Dev nD) (t : Fin cfg0.N) : Vec Ideal S1x512 .f32 := iblk m c 5 t
abbrev w3blk (c : Dev nD) (t : Fin cfg0.N) : Vec Ideal S512x128 .bf16 := iblk m c 6 t
abbrev b3blk (c : Dev nD) (t : Fin cfg0.N) : Vec Ideal S1x128 .f32 := iblk m c 7 t

/-- Row `r` of step `t`'s feature block is node `2000 t + r`'s feature row. -/
theorem xblk_apply (c : Dev nD) (t : Fin cfg0.N) (r : Fin 2000) (k : Fin 256) :
    xblk m c t (ix2 r k) = m ((c : Thread nD τ).loc main_arg0) (ix2 (row t r) k) := by
  unfold xblk iblk
  rw [View.read_apply]
  show V m c main_arg0 _ = _
  rw [V_main_arg0]
  congr 1
  funext a
  apply Fin.ext
  match a with
  | ⟨0, _⟩ => show win0_0.index t 0 * 2000 + 1 * r.val = 2000 * t.val + r.val; rw [(idx0 t).1]; omega
  | ⟨1, _⟩ => show win0_0.index t 1 * 256 + 1 * k.val = k.val; rw [(idx0 t).2]; omega

/-- Row `r` of step `t`'s key block is node `2000 t + r`'s key. -/
theorem kblk_apply (c : Dev nD) (t : Fin cfg0.N) (r : Fin 2000) :
    kblk m c t (ix2 r (0 : Fin 1)) = m ((c : Thread nD τ).loc main_arg1) (ix1 (row t r)) := by
  unfold kblk iblk
  rw [View.read_apply]
  show V m c main_v0 _ = _
  rw [V_v0]
  refine shapeCast_apply _ _ _ (ix1 (row t r)) ?_
  rw [Shape.rowMajor_val_one, Shape.rowMajor_val_two]
  show 2000 * t.val + r.val = (win0_1.index t 0 * 2000 + 1 * r.val) * 1 + (win0_1.index t 1 * 1 + 1 * 0)
  rw [(idx1 t).1, (idx1 t).2]; omega

theorem w1blk_apply (c : Dev nD) (t : Fin cfg0.N) (k : Fin 256) (j : Fin 512) :
    w1blk m c t (ix2 k j) = m ((c : Thread nD τ).loc main_arg2) (ix2 k j) := by
  unfold w1blk iblk
  rw [View.read_apply]
  show V m c main_v1 _ = _
  rw [V_v1]
  congr 1
  funext a
  apply Fin.ext
  match a with
  | ⟨0, _⟩ => show win0_2.index t 0 * 256 + 1 * k.val = k.val; rw [(idx2 t).1]; omega
  | ⟨1, _⟩ => show win0_2.index t 1 * 512 + 1 * j.val = j.val; rw [(idx2 t).2]; omega

theorem w2blk_apply (c : Dev nD) (t : Fin cfg0.N) (k : Fin 512) (j : Fin 512) :
    w2blk m c t (ix2 k j) = m ((c : Thread nD τ).loc main_arg4) (ix2 k j) := by
  unfold w2blk iblk
  rw [View.read_apply]
  show V m c main_v2 _ = _
  rw [V_v2]
  congr 1
  funext a
  apply Fin.ext
  match a with
  | ⟨0, _⟩ => show win0_4.index t 0 * 512 + 1 * k.val = k.val; rw [(idx4 t).1]; omega
  | ⟨1, _⟩ => show win0_4.index t 1 * 512 + 1 * j.val = j.val; rw [(idx4 t).2]; omega

theorem w3blk_apply (c : Dev nD) (t : Fin cfg0.N) (k : Fin 512) (j : Fin 128) :
    w3blk m c t (ix2 k j) = m ((c : Thread nD τ).loc main_arg6) (ix2 k j) := by
  unfold w3blk iblk
  rw [View.read_apply]
  show V m c main_v3 _ = _
  rw [V_v3]
  congr 1
  funext a
  apply Fin.ext
  match a with
  | ⟨0, _⟩ => show win0_6.index t 0 * 512 + 1 * k.val = k.val; rw [(idx6 t).1]; omega
  | ⟨1, _⟩ => show win0_6.index t 1 * 128 + 1 * j.val = j.val; rw [(idx6 t).2]; omega

theorem b1blk_apply (c : Dev nD) (t : Fin cfg0.N) (j : Fin 512) :
    b1blk m c t (ix2 (0 : Fin 1) j) = m ((c : Thread nD τ).loc main_arg3) (ix1 j) := by
  unfold b1blk iblk
  rw [View.read_apply]
  show V m c main_v4 _ = _
  rw [V_v4]
  refine shapeCast_apply _ _ _ (ix1 j) ?_
  rw [Shape.rowMajor_val_one, Shape.rowMajor_val_two]
  show j.val = (win0_3.index t 0 * 1 + 1 * 0) * 512 + (win0_3.index t 1 * 512 + 1 * j.val)
  rw [(idx3 t).1, (idx3 t).2]; omega

theorem b2blk_apply (c : Dev nD) (t : Fin cfg0.N) (j : Fin 512) :
    b2blk m c t (ix2 (0 : Fin 1) j) = m ((c : Thread nD τ).loc main_arg5) (ix1 j) := by
  unfold b2blk iblk
  rw [View.read_apply]
  show V m c main_v5 _ = _
  rw [V_v5]
  refine shapeCast_apply _ _ _ (ix1 j) ?_
  rw [Shape.rowMajor_val_one, Shape.rowMajor_val_two]
  show j.val = (win0_5.index t 0 * 1 + 1 * 0) * 512 + (win0_5.index t 1 * 512 + 1 * j.val)
  rw [(idx5 t).1, (idx5 t).2]; omega

theorem b3blk_apply (c : Dev nD) (t : Fin cfg0.N) (j : Fin 128) :
    b3blk m c t (ix2 (0 : Fin 1) j) = m ((c : Thread nD τ).loc main_arg7) (ix1 j) := by
  unfold b3blk iblk
  rw [View.read_apply]
  show V m c main_v6 _ = _
  rw [V_v6]
  refine shapeCast_apply _ _ _ (ix1 j) ?_
  rw [Shape.rowMajor_val_one, Shape.rowMajor_val_two]
  show j.val = (win0_7.index t 0 * 1 + 1 * 0) * 128 + (win0_7.index t 1 * 128 + 1 * j.val)
  rw [(idx7 t).1, (idx7 t).2]; omega

end Cert.KernelIdeal.Blocks

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.LibTransDot.lean ====
/-
  A contraction over the two operands' LEADING axes, re-indexed.

  For a contraction of a [K, R] array with a [K, C] array along axis 0 of both (no batch axis; the result is [R, C]),
  the sum over the contraction's own index type of the operands' products at the result index (p, q) is the plain sum
  over k < K of l(k, p) * r(k, q): the left operand enters transposed.  Stated at abstract extents and for any such
  dimension record.

  The operand indices are read one axis at a time.  The left operand's axis 0 is its only contracting axis and reads
  the contraction index's one coordinate; its axis 1 is its only non-contracting axis and, there being no batch axis,
  reads the result index at position 0 + 0.  The right operand's axis 0 is its only contracting axis and reads the
  same coordinate of the contraction index; its axis 1 is its only non-contracting axis and reads the result index at
  position 0 + 1 + 0, after the left operand's one non-contracting axis.  The contraction index type has one axis,
  of extent K (the left operand's axis 0), so it is in bijection with the numbers below K, and the sum is carried
  along that bijection.
-/
import Idealize.ShloMosaic.PureOps.Dims
import Idealize.ShloMosaic.Lib.ValueIdx

namespace TransDot

open Idealize.ShloMosaic Idealize.ShloMosaic.ValueIdx

variable {R K C : Nat}

/-- Two coordinates of one index taken at axes with the same number have the same value. -/
private theorem val_at_same_axis {s : Shape} (j : s.Idx) {a b : Nat} (ha : a < s.rank) (hb : b < s.rank)
    (h : a = b) : (j ⟨a, ha⟩).val = (j ⟨b, hb⟩).val := by
  cases h
  rfl

/-- The left operand's axis 0, the only contracting axis, reads the contraction index's one coordinate. -/
theorem lhs_val_0 (d : DotDims ⟨2, ![K, R]⟩ ⟨2, ![K, C]⟩ ⟨2, ![R, C]⟩)
    (hlc : d.lhsContracting = [0]) (hr : d.contr.rank = 1)
    (j : (⟨2, ![R, C]⟩ : Shape).Idx) (k : d.contr.Idx) :
    (d.lhsIdx j k (0 : Fin 2)).val = (k ⟨0, by omega⟩).val :=
  d.lhsIdx_val_of_single hlc j k

/-- The left operand's axis 1, the only non-contracting axis with no batch axis before it, reads the result
    index's coordinate 0. -/
theorem lhs_val_1 (d : DotDims ⟨2, ![K, R]⟩ ⟨2, ![K, C]⟩ ⟨2, ![R, C]⟩)
    (hlb : d.lhsBatch = []) (hln : d.lhsNonContracting = [1])
    (j : (⟨2, ![R, C]⟩ : Shape).Idx) (k : d.contr.Idx) :
    (d.lhsIdx j k (1 : Fin 2)).val = (j (0 : Fin 2)).val := by
  have hnb : (1 : Fin 2) ∉ d.lhsBatch := hlb ▸ List.not_mem_nil
  have hmem : (1 : Fin 2) ∈ d.lhsNonContracting := hln ▸ List.mem_singleton.mpr rfl
  unfold DotDims.lhsIdx
  rw [dif_neg hnb, dif_pos hmem, Fin.val_cast]
  refine val_at_same_axis j _ _ ?_
  rw [hlb, hln]
  simp

/-- The right operand's axis 0, the only contracting axis, reads the contraction index's one coordinate. -/
theorem rhs_val_0 (d : DotDims ⟨2, ![K, R]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![K, R]⟩ ⟨2, ![K, C]⟩ ⟨2, ![R, C]⟩)
    (hrb : d.rhsBatch = []) (hrn : d.rhsNonContracting = [1])
    (hlb : d.lhsBatch = []) (hln : d.lhsNonContracting = [1])
    (j : (⟨2, ![R, C]⟩ : Shape).Idx) (k : d.contr.Idx) :
    (d.rhsIdx j k (1 : Fin 2)).val = (j (1 : Fin 2)).val := by
  have hnb : (1 : Fin 2) ∉ d.rhsBatch := hrb ▸ List.not_mem_nil
  have hmem : (1 : Fin 2) ∈ d.rhsNonContracting := hrn ▸ List.mem_singleton.mpr rfl
  unfold DotDims.rhsIdx
  rw [dif_neg hnb, dif_pos hmem, Fin.val_cast]
  refine val_at_same_axis j _ _ ?_
  rw [hlb, hln, hrn]
  simp

/-- The left operand's index at result index `(p, q)` and contraction position `k` is `(k, p)`. -/
theorem lhsIdx_eq (d : DotDims ⟨2, ![K, R]⟩ ⟨2, ![K, C]⟩ ⟨2, ![R, C]⟩)
    (hlb : d.lhsBatch = []) (hln : d.lhsNonContracting = [1]) (hlc : d.lhsContracting = [0])
    (hr : d.contr.rank = 1) (hs : d.contr.size ⟨0, by omega⟩ = K)
    (p : Fin R) (q : Fin C) (k : Fin K) :
    d.lhsIdx (ix2 p q) ((contrEquiv1 d K hr hs).symm k) = ix2 k p := by
  funext a
  refine Fin.ext ?_
  match a with
  | ⟨0, _⟩ => exact (lhs_val_0 d hlc hr (ix2 p q) _).trans (contrEquiv1_symm_val d K hr hs k)
  | ⟨1, _⟩ => exact lhs_val_1 d hlb hln (ix2 p q) _

/-- The right operand's index at result index `(p, q)` and contraction position `k` is `(k, q)`. -/
theorem rhsIdx_eq (d : DotDims ⟨2, ![K, R]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [1])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  refine Fin.ext ?_
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (k, p) * r (k, q)`. -/
theorem sum_eq {M : Type} [AddCommMonoid M] [Mul M] (d : DotDims ⟨2, ![K, R]⟩ ⟨2, ![K, C]⟩ ⟨2, ![R, C]⟩)
    (hlb : d.lhsBatch = []) (hln : d.lhsNonContracting = [1]) (hlc : d.lhsContracting = [0])
    (hrb : d.rhsBatch = []) (hrn : d.rhsNonContracting = [1]) (hrc : d.rhsContracting = [0])
    (l : (⟨2, ![K, R]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 k p) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end TransDot
-- ==== Proof.Payload.lean ====
/-
  The kernel body's arithmetic at an index, over the extended reals.

  The body has three pure values.  The first is the block's gated rows: each of the block's 2000 rows through the
  three layers (matrix products into a zero accumulator, so plain sums; biases broadcast along the rows; maxima with
  the zero word) and the gate; changes of float format are the identity.  The second is what the body stores back into
  the accumulator block: what the block held, plus, at row g and column n, the sum over the 2000 rows of the one-hot
  entry (1 where the row's key is the word g, else 0) times the row's gated value — that is, the sum of the gated values
  of the rows whose key is g.  The third is the zero block the first grid step of a run stores.
-/
import proofs.«412252_j21440476742361_2_alg».proof.Proof.Gen.KernelIdeal.Skeleton
import proofs.«412252_j21440476742361_2_alg».proof.Proof.Spec
import proofs.«412252_j21440476742361_2_alg».proof.Proof.LibPlainDot
import proofs.«412252_j21440476742361_2_alg».proof.Proof.LibTransDot
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- One affine layer read at row p, column q: the contraction over the shared axis plus the bias row's entry. -/
theorem affine_apply {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .bf16) (w : FVec Ideal ⟨2, ![K, C]⟩ .bf16) (b : FVec Ideal ⟨2, ![1, C]⟩ .f32)
    (hb : (⟨2, ![1, C]⟩ : Shape).Broadcasts ⟨2, ![R, C]⟩) (p : Fin R) (q : Fin C) :
    addf (matmul d none l w (constant (F := Ideal) ⟨2, ![R, C]⟩ .f32 0x00000000#32)) (broadcastTo ⟨2, ![R, C]⟩ b hb) (ix2 p q)
      = (∑ k : Fin K, l (ix2 p k) * w (ix2 k q)) + b (ix2 (0 : Fin 1) q) := by
  refine (addf_apply _ _ _).trans ?_
  refine congrArg₂ (· + ·) ?_ (broadcastTo_1b_ab_apply b hb p q)
  refine (Ideal.matmul_constant_zero_apply d none l w (ix2 p q)).trans ?_
  exact PlainDot.sum_eq d hlb hln hlc hrb hrn hrc l w p q

/-- A rectified affine layer read at row p, column q: the maximum of the affine value and the zero word. -/
theorem hidden_apply {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .bf16) (w : FVec Ideal ⟨2, ![K, C]⟩ .bf16) (b : FVec Ideal ⟨2, ![1, C]⟩ .f32)
    (hb : (⟨2, ![1, C]⟩ : Shape).Broadcasts ⟨2, ![R, C]⟩) (hbits : FTy.bits .bf16 < FTy.bits .f32) (p : Fin R) (q : Fin C) :
    (truncf .bf16 (maximumf (addf (matmul d none l w (constant (F := Ideal) ⟨2, ![R, C]⟩ .f32 0x00000000#32)) (broadcastTo ⟨2, ![R, C]⟩ b hb))
        (broadcast ⟨2, ![R, C]⟩ (Scalar.ofBits (F := Ideal) .f32 0x00000000#32))) hbits : FVec Ideal ⟨2, ![R, C]⟩ .bf16) (ix2 p q)
      = max ((∑ k : Fin K, l (ix2 p k) * w (ix2 k q)) + b (ix2 (0 : Fin 1) q)) SegMlp.floor0 :=
  congrArg (fun t : EReal => max t SegMlp.floor0) (affine_apply d hlb hln hlc hrb hrn hrc l w b hb p q)

/-- The block's gated rows: row `r`, column `n` is the specification's row function of the block's row `r`. -/
theorem pay3_apply (x0 : Vec Ideal S2000x256 .f32) (x2 : Vec Ideal S256x512 .bf16) (x3 : Vec Ideal S1x512 .f32)
    (x4 : Vec Ideal S512x512 .bf16) (x5 : Vec Ideal S1x512 .f32) (x6 : Vec Ideal S512x128 .bf16) (x7 : Vec Ideal S1x128 .f32)
    (r : Fin 2000) (n : Fin 128) :
    k0_pay3 (F := Ideal) x0 x2 x3 x4 x5 x6 x7 (ix2 r n)
      = SegMlp.rowAct (fun k j => x2 (ix2 k j)) (fun j => x3 (ix2 (0 : Fin 1) j)) (fun k j => x4 (ix2 k j))
          (fun j => x5 (ix2 (0 : Fin 1) j)) (fun k j => x6 (ix2 k j)) (fun j => x7 (ix2 (0 : Fin 1) j)) (fun k => x0 (ix2 r k)) n := by
  unfold k0_pay3 SegMlp.rowAct
  -- the gate is pointwise: both sides are the gate of the third layer's value at (r, n)
  refine congrArg (fun y : EReal => Ideal.logistic y * y) ?_
  -- the third layer
  refine (affine_apply dot_S2000x512_S512x128_S2000x128_1_0_0_1_n_n rfl rfl rfl rfl rfl rfl _ _ _ _ r n).trans ?_
  refine congrArg₂ (· + ·) (Finset.sum_congr rfl fun k _ => congrArg₂ (· * ·) ?_ (congrFun (shapeCast_self x6 _) _))
    (congrFun (shapeCast_self x7 _) _)
  -- the second layer at (r, k)
  refine (hidden_apply dot_S2000x512_S512x512_S2000x512_1_0_0_1_n_n rfl rfl rfl rfl rfl rfl _ _ _ _ _ r k).trans ?_
  refine congrArg (fun t : EReal => max t SegMlp.floor0) ?_
  refine congrArg₂ (· + ·) (Finset.sum_congr rfl fun k' _ => congrArg₂ (· * ·) ?_ (congrFun (shapeCast_self x4 _) _))
    (congrFun (shapeCast_self x5 _) _)
  -- the first layer at (r, k')
  refine (hidden_apply dot_S2000x256_S256x512_S2000x512_1_0_0_1_n_n rfl rfl rfl rfl rfl rfl _ _ _ _ _ r k').trans ?_
  refine congrArg (fun t : EReal => max t SegMlp.floor0) ?_
  exact congrArg₂ (· + ·) (Finset.sum_congr rfl fun k'' _ => congrArg₂ (· * ·) rfl (congrFun (shapeCast_self x2 _) _))
    (congrFun (shapeCast_self x3 _) _)

/-- A one-column array broadcast along its unit axis reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison word of two 32-bit words, widened and read as a signed integer, is 1 when they are equal and 0 otherwise. -/
theorem eqWord_toReal (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · have hb : (a == b) = true := by rw [h]; exact beq_self_eq_true b
    have h1 : ((BitVec.ofBool true).setWidth 32).toInt = 1 := by decide
    rw [if_pos h, hb, h1, Int.cast_one, EReal.coe_one]
  · have hb : (a == b) = false := beq_eq_false_iff_ne.mpr h
    have h0 : ((BitVec.ofBool false).setWidth 32).toInt = 0 := by decide
    rw [if_neg h, hb, h0, Int.cast_zero, EReal.coe_zero]

/-- The one-hot matrix of the keys against the row numbers: entry `(r, g)` is 1 when row `r`'s key is the word `g`, else 0. -/
theorem onehot_apply {R G : Nat} (key : IVec ⟨2, ![R, 1]⟩ 32) (hsc : (⟨2, ![R, 1]⟩ : Shape).ShapeCasts ⟨2, ![R, 1]⟩)
    (hio : (⟨2, ![1, G]⟩ : Shape).Iotas .tc 32 [1]) (hb1 : (⟨2, ![R, 1]⟩ : Shape).Broadcasts ⟨2, ![R, G]⟩)
    (hb2 : (⟨2, ![1, G]⟩ : Shape).Broadcasts ⟨2, ![R, G]⟩) (hlt : 1 < 32) (hbits : FTy.bits .bf16 < FTy.bits .f32)
    (r : Fin R) (g : Fin G) :
    (truncf .bf16 (sitofp (F := Ideal) .f32 (extui 32 (cmpi .eq (broadcastTo ⟨2, ![R, G]⟩ (shapeCast ⟨2, ![R, 1]⟩ key hsc) hb1)
        (broadcastTo ⟨2, ![R, G]⟩ (iota .tc ⟨2, ![1, G]⟩ 32 [1] hio) hb2)) hlt)) hbits : FVec Ideal ⟨2, ![R, G]⟩ .bf16) (ix2 r g)
      = if key (ix2 r (0 : Fin 1)) = BitVec.ofNat 32 g.val then (1 : EReal) else 0 := by
  refine (eqWord_toReal _ _).trans ?_
  have hk : broadcastTo ⟨2, ![R, G]⟩ (shapeCast ⟨2, ![R, 1]⟩ key hsc) hb1 (ix2 r g) = key (ix2 r (0 : Fin 1)) :=
    (broadcastTo_a1_ab_apply _ hb1 r g).trans (congrFun (shapeCast_self key hsc) _)
  have hg : broadcastTo ⟨2, ![R, G]⟩ (iota .tc ⟨2, ![1, G]⟩ 32 [1] hio) hb2 (ix2 r g) = BitVec.ofNat 32 g.val :=
    (broadcastTo_1b_ab_apply _ hb2 r g).trans (iota_single_apply .tc ⟨2, ![1, G]⟩ 32 1 hio (ix2 (0 : Fin 1) g))
  rw [hk, hg]

/-- A one-hot entry times a value is the value when the key is the word `g` and zero otherwise. -/
theorem onehot_mul (key : BitVec 32) (g : Fin 1024) (a : EReal) :
    (if key = BitVec.ofNat 32 g.val then (1 : EReal) else 0) * a = SegMlp.pick key g a := by
  unfold SegMlp.pick
  by_cases h : key = BitVec.ofNat 32 g.val
  · rw [if_pos h, if_pos h, one_mul]
  · rw [if_neg h, if_neg h, zero_mul]

/-- The stored accumulator block: what it held plus the gated values of the block's rows whose key is the word `g`. -/
theorem pay1_apply (v34 : FVec Ideal S2000x128 .bf16) (v35 : Vec Ideal S2000x1 .i32) (v45 : Vec Ideal S1x1024x128 .f32)
    (g : Fin 1024) (n : Fin 128) :
    k0_pay1 (F := Ideal) v34 v35 v45 (ix3 (0 : Fin 1) g n)
      = v45 (ix3 (0 : Fin 1) g n) + ∑ r : Fin 2000, SegMlp.pick (v35 (ix2 r (0 : Fin 1))) g (v34 (ix2 r n)) := by
  unfold k0_pay1
  refine (shapeCast_ab_1ab_apply _ _ (0 : Fin 1) g n).trans ?_
  refine (addf_apply _ _ _).trans ?_
  refine congrArg₂ (· + ·) (shapeCast_1ab_ab_apply v45 _ g n) ?_
  refine (Ideal.matmul_constant_zero_apply dot_S2000x1024_S2000x128_S1024x128_0_0_1_1_n_n none _ v34 (ix2 g n)).trans ?_
  refine (TransDot.sum_eq dot_S2000x1024_S2000x128_S1024x128_0_0_1_1_n_n rfl rfl rfl rfl rfl rfl _ v34 g n).trans ?_
  refine Finset.sum_congr rfl fun r _ => ?_
  refine (congrArg (· * v34 (ix2 r n)) (onehot_apply v35 _ _ _ _ _ _ r g)).trans ?_
  exact onehot_mul _ g _

/-- The block a run's first grid step stores is zero everywhere. -/
theorem pay2_apply (i : S1x1024x128.Idx) : k0_pay2 (F := Ideal) i = 0 := by
  unfold k0_pay2
  refine (shapeCast_addUnit_apply _ _ _ i).trans ?_
  exact Ideal.ofBits_zero_f32

end Cert.KernelIdeal.PayValue

end
-- ==== Proof.Fold.lean ====
/-
  The accumulator block, step by step.

  Each grid step stores back what the accumulator block held plus, at row g and column n, the gated values of the
  step's 2000 nodes whose key is g; the first step of each run of 125 starts from the zero block.  By induction on the
  grid point, after point n the block holds the sum of the steps from the start of n's run up to n.
-/
import proofs.«412252_j21440476742361_2_alg».proof.Proof.Gen.KernelIdeal.Frame
import proofs.«412252_j21440476742361_2_alg».proof.Proof.CaseValue
import proofs.«412252_j21440476742361_2_alg».proof.Proof.Blocks
import proofs.«412252_j21440476742361_2_alg».proof.Proof.Payload
import proofs.«412252_j21440476742361_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Fold

open Cert.KernelIdeal Cert.KernelIdeal.Gen Cert.KernelIdeal.Blocks

variable (m : (ℓ : Loc nD τ sig) → Buf (Elt Ideal) ℓ)

/-- Node `R`'s key. -/
def key (c : Dev nD) (R : Fin 500000) : BitVec 32 := m ((c : Thread nD τ).loc main_arg1) (ix1 R)

/-- Node `R`'s gated row, from the argument arrays. -/
def act (c : Dev nD) (R : Fin 500000) (n : Fin 128) : EReal :=
  SegMlp.nodeAct (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) R n

/-- What grid step `t` adds at row `g`, column `n`: the gated values of its 2000 nodes whose key is `g`. -/
def stepSum (c : Dev nD) (t : Fin cfg0.N) (g : Fin 1024) (n : Fin 128) : EReal :=
  ∑ r : Fin 2000, SegMlp.pick (key m c (row t r)) g (act m c (row t r) n)

/-- The same for every number, zero past the grid. -/
def stepNat (c : Dev nD) (t : Nat) (g : Fin 1024) (n : Fin 128) : EReal :=
  if h : t < cfg0.N then stepSum m c ⟨t, h⟩ g n else 0

theorem stepNat_of_lt (c : Dev nD) (t : Nat) (h : t < cfg0.N) (g : Fin 1024) (n : Fin 128) :
    stepNat m c t g n = stepSum m c ⟨t, h⟩ g n := dif_pos h

/-- The gated rows of a step's block are the gated rows of its nodes. -/
theorem blockAct (c : Dev nD) (t : Fin cfg0.N) (r : Fin 2000) (n : Fin 128) :
    k0_pay3 (F := Ideal) (xblk m c t) (w1blk m c t) (b1blk m c t) (w2blk m c t) (b2blk m c t) (w3blk m c t) (b3blk m c t) (ix2 r n)
      = act m c (row t r) n := by
  rw [PayValue.pay3_apply]
  unfold act SegMlp.nodeAct
  simp only [xblk_apply, w1blk_apply, b1blk_apply, w2blk_apply, b2blk_apply, w3blk_apply, b3blk_apply]

/-- ONE STEP: the stored block at `(0, g, n)` is what the block held there plus the step's sum. -/
theorem step_apply (c : Dev nD) (t : Fin cfg0.N) (acc : Vec Ideal S1x1024x128 .f32) (g : Fin 1024) (n : Fin 128) :
    k0_pay1 (F := Ideal) (k0_pay3 (xblk m c t) (w1blk m c t) (b1blk m c t) (w2blk m c t) (b2blk m c t) (w3blk m c t) (b3blk m c t))
        (kblk m c t) acc (ix3 (0 : Fin 1) g n)
      = acc (ix3 (0 : Fin 1) g n) + stepSum m c t g n := by
  rw [PayValue.pay1_apply]
  refine congrArg (acc (ix3 (0 : Fin 1) g n) + ·) (Finset.sum_congr rfl fun r _ => ?_)
  rw [kblk_apply, blockAct]
  rfl

/-- What the block holds after the first step of a run. -/
theorem outsAt_first (c : Dev nD) (t : Fin cfg0.N) (h0 : t.val % 125 = 0) :
    outsAt0 m c t.val t.isLt
      = k0_pay1 (F := Ideal) (k0_pay3 (xblk m c t) (w1blk m c t) (b1blk m c t) (w2blk m c t) (b2blk m c t) (w3blk m c t) (b3blk m c t))
          (kblk m c t) (k0_pay2 (F := Ideal)) := by
  rw [outsAt0_A m c t h0]
  exact CaseValue.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk m c t) (kblk m c t) (w1blk m c t) (b1blk m c t) (w2blk m c t) (b2blk m c t) (w3blk m c t) (b3blk m c t)

/-- What the block holds after a later step of a run, over what the step before left. -/
theorem outsAt_later (c : Dev nD) (t : Fin cfg0.N) (h0 : ¬t.val % 125 = 0) :
    outsAt0 m c t.val t.isLt
      = k0_pay1 (F := Ideal) (k0_pay3 (xblk m c t) (w1blk m c t) (b1blk m c t) (w2blk m c t) (b2blk m c t) (w3blk m c t) (b3blk m c t))
          (kblk m c t) (outsAt0 m c (t.val - 1) (Nat.lt_of_le_of_lt (Nat.sub_le _ _) t.isLt)) := by
  rw [outsAt0_B m c t h0]
  exact CaseValue.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk m c t) (kblk m c t) (w1blk m c t) (b1blk m c t) (w2blk m c t) (b2blk m c t) (w3blk m c t) (b3blk m c t) (outsAt0 m c (t.val - 1) (Nat.lt_of_le_of_lt (Nat.sub_le _ _) t.isLt))

/-- THE FOLD: after point `n` the block holds, at `(0, g, k)`, the sum of the steps of `n`'s run up to `n`. -/
theorem outsAt_apply (c : Dev nD) : ∀ (n : Nat) (h : n < cfg0.N) (g : Fin 1024) (k : Fin 128),
    outsAt0 m c n h (ix3 (0 : Fin 1) g k) = ∑ s ∈ Finset.range (n % 125 + 1), stepNat m c (n - n % 125 + s) g k
  | 0, h, g, k => by
    rw [outsAt_first m c ⟨0, h⟩ rfl, step_apply, PayValue.pay2_apply, zero_add]
    show _ = ∑ s ∈ Finset.range 1, stepNat m c (0 - 0 + s) g k
    rw [Finset.sum_range_one, stepNat_of_lt m c _ h]
  | n + 1, h, g, k => by
    by_cases h0 : (n + 1) % 125 = 0
    · rw [outsAt_first m c ⟨n + 1, h⟩ h0, step_apply, PayValue.pay2_apply, zero_add, h0]
      show _ = ∑ s ∈ Finset.range 1, stepNat m c (n + 1 - 0 + s) g k
      rw [Finset.sum_range_one]
      exact (stepNat_of_lt m c (n + 1) h g k).symm
    · rw [outsAt_later m c ⟨n + 1, h⟩ h0, step_apply]
      show outsAt0 m c n _ (ix3 (0 : Fin 1) g k) + _ = _
      rw [outsAt_apply c n (Nat.lt_of_succ_lt h) g k]
      have e1 : (n + 1) % 125 = n % 125 + 1 := by omega
      have e2 : n + 1 - (n % 125 + 1) = n - n % 125 := by omega
      rw [e1, e2, Finset.sum_range_succ _ (n % 125 + 1)]
      have e3 : n - n % 125 + (n % 125 + 1) = n + 1 := by omega
      rw [e3, stepNat_of_lt m c _ h]

end Cert.KernelIdeal.Fold

end
-- ==== Proof.Algebra.lean ====
/-
  A sum over consecutive blocks is the sum over the whole range.

  T = a * b * n numbers are cut into a * b consecutive blocks of n, and the blocks into a consecutive runs of b blocks.
  Summing a function over every number of a block, the blocks of a run, and the runs, is summing it over all T numbers:
  block s of run c holds the numbers n * (b * c + s) + r for r < n.

  One fact does the work twice: p consecutive blocks of n numbers, block q holding n * q + r for r < n, make up the
  numbers below p * n.  It is proved by adding one block at a time: the numbers below (p + 1) * n = p * n + n are those
  below p * n followed by the n numbers p * n + r.  Applied to the a runs of b blocks it turns the two outer sums into
  one sum over the a * b block numbers b * c + s; applied to the a * b blocks of n numbers it turns what is left into
  the sum over all numbers below a * b * n.
-/
import Mathlib.Algebra.BigOperators.Fin
import Mathlib.Algebra.BigOperators.Intervals

namespace BlockSum

open Finset

/-- Consecutive blocks: summing over the numbers `n * q + r` of the blocks `q < p`, `r < n`, is summing over
    all numbers below `p * n`. -/
theorem sum_blocks {M : Type*} [AddCommMonoid M] (p n : Nat) (g : Nat → M) :
    ∑ q ∈ range p, ∑ r ∈ range n, g (n * q + r) = ∑ R ∈ range (p * n), g R := by
  induction p with
  | zero =>
    rw [Nat.zero_mul, sum_range_zero, sum_range_zero]
  | succ p ih =>
    rw [sum_range_succ, ih, Nat.succ_mul, sum_range_add, Nat.mul_comm n p]

/-- Runs of blocks of numbers, summed run by run and block by block, give the sum over all the numbers. -/
theorem sum_runs_blocks {M : Type*} [AddCommMonoid M] (a b n T : Nat) (hT : a * b * n = T) (f : Nat → M) :
    ∑ c : Fin a, ∑ s ∈ Finset.range b, ∑ r : Fin n, f (n * (b * c.val + s) + r.val) = ∑ R : Fin T, f R.val := by
  subst hT
  calc ∑ c : Fin a, ∑ s ∈ range b, ∑ r : Fin n, f (n * (b * c.val + s) + r.val)
      = ∑ c ∈ range a, ∑ s ∈ range b, ∑ r : Fin n, f (n * (b * c + s) + r.val) :=
        Fin.sum_univ_eq_sum_range (fun c => ∑ s ∈ range b, ∑ r : Fin n, f (n * (b * c + s) + r.val)) a
    _ = ∑ c ∈ range a, ∑ s ∈ range b, (fun q => ∑ r ∈ range n, f (n * q + r)) (b * c + s) :=
        sum_congr rfl fun c _ => sum_congr rfl fun s _ =>
          Fin.sum_univ_eq_sum_range (fun r => f (n * (b * c + s) + r)) n
    _ = ∑ q ∈ range (a * b), ∑ r ∈ range n, f (n * q + r) :=
        sum_blocks a b fun q => ∑ r ∈ range n, f (n * q + r)
    _ = ∑ R ∈ range (a * b * n), f R := sum_blocks (a * b) n f
    _ = ∑ R : Fin (a * b * n), f R.val := (Fin.sum_univ_eq_sum_range f (a * b * n)).symm

end BlockSum
-- ==== Proof.KernelValue.lean ====
/-
  The kernel program's result is the specification.

  The launch's result is a [2, 1024, 128] array, one half per run of 125 grid steps.  Only a run's last step writes its
  block back, and by then the block holds the run's whole sum; the two last steps' blocks are the two halves, so the
  array ends at those sums.  The host line after the launch adds the two halves from the zero word.  A step's sum is
  over its 2000 consecutive nodes, a run's over 125 consecutive steps, so the total is the sum over all 500000 nodes of
  each node's gated value at the row its key names: the specification.
-/
import proofs.«412252_j21440476742361_2_alg».proof.Proof.Gen.KernelIdeal.Frame
import proofs.«412252_j21440476742361_2_alg».proof.Proof.Fold
import proofs.«412252_j21440476742361_2_alg».proof.Proof.Algebra
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Blocks Cert.KernelIdeal.Fold

variable (m : (ℓ : Loc nD τ sig) → Buf (Elt Ideal) ℓ) (ρ : Dev nD → PrngReg)

/-- The launch's result array: half `h`, row `g`, column `n` is the sum of the 125 steps of run `h`. -/
def halves (c : Dev nD) : S2x1024x128.Idx → EReal :=
  fun i => ∑ s ∈ Finset.range 125, stepNat m c (125 * (i 0).val + s) (i 1) (i 2)

theorem halves_apply (c : Dev nD) (h : Fin 2) (g : Fin 1024) (n : Fin 128) :
    halves m c (ix3 h g n) = ∑ s ∈ Finset.range 125, stepNat m c (125 * h.val + s) g n := rfl

/-- The accumulator window's block index: the run's number, then nothing. -/
theorem idx8 : ∀ t : Fin cfg0.N, win0_8.index t (0 : Fin 3) = t.val / 125 ∧ win0_8.index t (1 : Fin 3) = 0 ∧ win0_8.index t (2 : Fin 3) = 0 :=
  (by decide +kernel : ∀ t : Fin grid0.N, win0_8.index t (0 : Fin 3) = t.val / 125 ∧ win0_8.index t (1 : Fin 3) = 0 ∧ win0_8.index t (2 : Fin 3) = 0)

/-- Its blocks lie whole inside the array. -/
theorem xs8 : ∀ t : Fin cfg0.N, win0_8.xsize (grid0.coords t) (0 : Fin 3) = 1 ∧ win0_8.xsize (grid0.coords t) (1 : Fin 3) = 1024 ∧ win0_8.xsize (grid0.coords t) (2 : Fin 3) = 128 :=
  (by decide +kernel : ∀ t : Fin grid0.N, win0_8.xsize (grid0.coords t) (0 : Fin 3) = 1 ∧ win0_8.xsize (grid0.coords t) (1 : Fin 3) = 1024 ∧ win0_8.xsize (grid0.coords t) (2 : Fin 3) = 128)

/-- THE WRITE-BACKS: the last step of each run writes its block back, and the block then holds the run's whole sum. -/
theorem flushed_eq (c : Dev nD) (t : Fin cfg0.N) (hf : (cfg0.win 8).flush t = true) :
    (dats m 0 c).flushed 8 t = ((cfg0.win 8).blk t).view.read (Elt Ideal) (halves m c) := by
  have h124 : t.val % 125 = 124 := (flush0_8 t).mp hf
  have hN : t.val < 250 := lt250 t
  show (cfg0.win 8).cut (grid0.coords t) ((dats m 0 c).after 8 t) = _
  rw [after0_8]
  funext y
  rw [View.read_apply]
  have hy0 : (y 0).val < 1 := lt_of_lt_of_eq (y 0).isLt (xs8 t).1
  have hy1 : (y 1).val < 1024 := lt_of_lt_of_eq (y 1).isLt (xs8 t).2.1
  have hy2 : (y 2).val < 128 := lt_of_lt_of_eq (y 2).isLt (xs8 t).2.2
  have hq : t.val / 125 < 2 := by omega
  have hxi : (cfg0.win 8).xinj (grid0.coords t) y = ix3 (0 : Fin 1) (⟨(y 1).val, hy1⟩ : Fin 1024) (⟨(y 2).val, hy2⟩ : Fin 128) :=
    funext fun a => Fin.ext (by
      match a with
      | ⟨0, _⟩ => show (y 0).val = 0; omega
      | ⟨1, _⟩ => rfl
      | ⟨2, _⟩ => rfl)
  have hemb : ((cfg0.win 8).blk t).view.emb y = ix3 (⟨t.val / 125, hq⟩ : Fin 2) (⟨(y 1).val, hy1⟩ : Fin 1024) (⟨(y 2).val, hy2⟩ : Fin 128) :=
    funext fun a => Fin.ext (by
      match a with
      | ⟨0, _⟩ => show win0_8.index t 0 * 1 + 1 * (y 0).val = t.val / 125; rw [(idx8 t).1]; omega
      | ⟨1, _⟩ => show win0_8.index t 1 * 1024 + 1 * (y 1).val = (y 1).val; rw [(idx8 t).2.1]; omega
      | ⟨2, _⟩ => show win0_8.index t 2 * 128 + 1 * (y 2).val = (y 2).val; rw [(idx8 t).2.2]; omega)
  show outsAt0 m c t.val t.isLt ((cfg0.win 8).xinj (grid0.coords t) y) = halves m c (((cfg0.win 8).blk t).view.emb y)
  rw [hxi, hemb, outsAt_apply, halves_apply, h124]
  have e : t.val - 124 = 125 * (t.val / 125) := by omega
  rw [e]

/-- The two runs' last steps between them cover the result array. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  have h0 : (i 0 : Nat) < 2 := (i 0).isLt
  have h1 : (i 1 : Nat) < 1024 := (i 1).isLt
  have h2 : (i 2 : Nat) < 128 := (i 2).isLt
  have ht : 125 * (i 0 : Nat) + 124 < cfg0.N := lt_of_lt_of_eq (by omega : 125 * (i 0 : Nat) + 124 < 250) (N_0).symm
  refine ⟨⟨125 * (i 0 : Nat) + 124, ht⟩, (flush0_8 _).mpr (by show (125 * (i 0 : Nat) + 124) % 125 = 124; omega), ?_⟩
  show i ∈ ((View.whole main_v7).slice (win0_8.rect ⟨125 * (i 0 : Nat) + 124, ht⟩)).set
  rw [View.set_slice_whole, Rect.mem_set_unit]
  intro a
  match a with
  | ⟨0, _⟩ =>
    show win0_8.index ⟨125 * (i 0 : Nat) + 124, ht⟩ 0 * 1 ≤ (i 0 : Nat) ∧ (i 0 : Nat) < win0_8.index ⟨125 * (i 0 : Nat) + 124, ht⟩ 0 * 1 + win0_8.xsize (grid0.coords ⟨125 * (i 0 : Nat) + 124, ht⟩) 0
    rw [(idx8 _).1, (xs8 _).1]; show (125 * (i 0 : Nat) + 124) / 125 * 1 ≤ _ ∧ _ < (125 * (i 0 : Nat) + 124) / 125 * 1 + 1; omega
  | ⟨1, _⟩ =>
    show win0_8.index ⟨125 * (i 0 : Nat) + 124, ht⟩ 1 * 1024 ≤ (i 1 : Nat) ∧ (i 1 : Nat) < win0_8.index ⟨125 * (i 0 : Nat) + 124, ht⟩ 1 * 1024 + win0_8.xsize (grid0.coords ⟨125 * (i 0 : Nat) + 124, ht⟩) 1
    rw [(idx8 _).2.1, (xs8 _).2.1]; omega
  | ⟨2, _⟩ =>
    show win0_8.index ⟨125 * (i 0 : Nat) + 124, ht⟩ 2 * 128 ≤ (i 2 : Nat) ∧ (i 2 : Nat) < win0_8.index ⟨125 * (i 0 : Nat) + 124, ht⟩ 2 * 128 + win0_8.xsize (grid0.coords ⟨125 * (i 0 : Nat) + 124, ht⟩) 2
    rw [(idx8 _).2.2, (xs8 _).2.2]; omega

/-- So the launch's result array ends holding the two runs' sums. -/
theorem final8 (c : Dev nD) : (dats m 0 c).arrAt 8 cfg0.N = halves m c :=
  (dats m 0 c).arrAt_eq_of_cover 8 (halves m c) (flushed_eq m c) (cover8 c)

/-- The host line after the launch adds the two halves, from the zero word. -/
theorem tail_v8 (c : Dev nD) :
    Pipeline.afterTail₀ cfgs (dats m) 0 (V0 m) [hostOps1] c main_v8
      = Host.reduceAdd (F := Ideal) (halves m c) (constant (F := Ideal) S_ .f32 0x00000000#32) reducesTo_S2x1024x128_S1024x128_d0 h_S_ := by
  unfold Pipeline.afterTail₀
  show StableHlo.after hostOps1 _ (Proc.devRef .tc main_v8) = _
  after_results
  exact congrArg (fun x => Host.reduceAdd (F := Ideal) x (constant (F := Ideal) S_ .f32 0x00000000#32) reducesTo_S2x1024x128_S1024x128_d0 h_S_)
    ((Pipeline.withArrays_arr spec0 launch0.win.arr_inj c (V0 m c) (fun w => (dats m 0 c).arrAt w cfg0.N) 8).trans (final8 m c))

/-! ## From the steps' sums to the sum over all nodes -/

/-- Node number `R`'s term of row `g`, column `n`: its gated value if its key is `g`, else nothing; zero past the last node. -/
def nodeTerm (c : Dev nD) (g : Fin 1024) (n : Fin 128) (R : Nat) : EReal :=
  if h : R < 500000 then SegMlp.pick (key m c ⟨R, h⟩) g (act m c ⟨R, h⟩ n) else 0

/-- A step's sum is the sum of its 2000 consecutive nodes' terms. -/
theorem stepNat_eq (c : Dev nD) (t : Nat) (ht : t < 250) (g : Fin 1024) (n : Fin 128) :
    stepNat m c t g n = ∑ r : Fin 2000, nodeTerm m c g n (2000 * t + r.val) := by
  rw [stepNat_of_lt m c t (lt_of_lt_of_eq ht (N_0).symm)]
  unfold stepSum
  refine Finset.sum_congr rfl fun r _ => ?_
  unfold nodeTerm
  rw [dif_pos (by have := r.isLt; omega)]
  rfl

theorem hred : S2x1024x128.Reduces [0] S1024x128 := by decide

/-- THE KERNEL PROGRAM'S RESULT is the specification: the host sum of the two halves, each the sum of its run's 125
    steps, each the sum of its 2000 nodes' terms, is the sum over all 500000 nodes. -/
theorem result_v8 (c : Dev nD) :
    Pipeline.afterTail₀ cfgs (dats m) 0 (V0 m) [hostOps1] c main_v8
      = SegMlp.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [tail_v8]
  funext i
  obtain ⟨g, n, rfl⟩ : ∃ (g : Fin 1024) (n : Fin 128), i = ix2 g n := ⟨i 0, i 1, eq_ix2 i⟩
  rw [SegMlp.result_apply]
  show Ideal.hostReduceAdd reducesTo_S2x1024x128_S1024x128_d0 (halves m c) (Ideal.ofBits .f32 0x00000000#32) (ix2 g n) = _
  rw [Ideal.hostReduceAdd_single reducesTo_S2x1024x128_S1024x128_d0 hred, Ideal.ofBits_zero_f32, zero_add]
  have hl : ∀ k : Fin 2, hred.lift (ix2 g n) k = ix3 k g n := fun k => funext fun a => Fin.ext (by
    match a with
    | ⟨0, _⟩ => rfl
    | ⟨1, _⟩ => rfl
    | ⟨2, _⟩ => rfl)
  show ∑ k : Fin 2, halves m c (hred.lift (ix2 g n) k) = _
  simp only [hl, halves_apply]
  rw [Finset.sum_congr rfl fun (k : Fin 2) _ => Finset.sum_congr rfl fun s hs =>
    stepNat_eq m c (125 * k.val + s) (by have := Finset.mem_range.mp hs; have := k.isLt; omega) g n]
  rw [BlockSum.sum_runs_blocks 2 125 2000 500000 rfl (nodeTerm m c g n)]
  unfold SegMlp.segSum
  refine Finset.sum_congr rfl fun R _ => ?_
  unfold nodeTerm
  rw [dif_pos R.isLt]
  rfl

/-- THE KERNEL PROGRAM'S RUN, read: every execution ends with the result array at the specification and the
    arguments as they were. -/
theorem run : θ_run defs (onTc (τ := τ) (main (F := Ideal))) ⟨m, fun _ => 0, ρ⟩ (fun r => ∀ c : Dev nD,
      r.2.mem ((c.tc : Thread nD τ).loc main_v8)
        = SegMlp.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v8 (Pipeline.mem_restRefs_of main_v8 (by decide) (by decide))).trans (result_v8 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KValue

end
-- ==== Proof.lean ====
/-
  The certificate's five claims.

  Both programs compute, over the extended reals, the per-key sums of the gated rows of 500000 nodes: each node's 256
  features through three affine layers (the first two rectified) and a gate y * logistic y, summed into the row its
  32-bit key names among 1024 rows (a node whose key names no row is dropped).  The kernel does it in 250 grid steps of
  2000 nodes, as two runs of 125 steps each accumulating into its own [1024, 128] block through a one-hot matrix
  product, the two blocks added on the host; the reference in three host matrix products and one accumulating scatter.
  Sums of extended reals may be regrouped and reordered, a one-hot factor 1 or 0 keeps or drops its term, and a change
  of float format changes nothing, so both results are the one function `SegMlp.result` of the argument arrays.

  The kernel's two frame claims are its generated frame certificates; the reference's is its generated run with the
  result forgotten; the idealization rewrote nothing, so `preserves` asks nothing; and the two runs, from memories
  agreeing on the arguments, end at the same array.
-/
import proofs.«412252_j21440476742361_2_alg».proof.Defs
import proofs.«412252_j21440476742361_2_alg».proof.Proof.Gen.Kernel
import proofs.«412252_j21440476742361_2_alg».proof.Proof.Gen.Kernel.Frame
import proofs.«412252_j21440476742361_2_alg».proof.Proof.Gen.KernelIdeal
import proofs.«412252_j21440476742361_2_alg».proof.Proof.Gen.KernelIdeal.Frame
import proofs.«412252_j21440476742361_2_alg».proof.Proof.Gen.ReferenceIdeal
import proofs.«412252_j21440476742361_2_alg».proof.Proof.Gen.Pre_finite_inputs
import proofs.«412252_j21440476742361_2_alg».proof.Proof.RefRead
import proofs.«412252_j21440476742361_2_alg».proof.Proof.RefValue
import proofs.«412252_j21440476742361_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_k [Cert.Pre_finite_inputs.Facts] : Cert.frame_Kernel (hKernel := Cert.Kernel.Gen.facts) :=
  fun m ρ _ => Cert.Kernel.Gen.frame m ρ

/-- So does its reading over the extended reals. -/
theorem frame_ki [Cert.Pre_finite_inputs.Facts] : Cert.frame_KernelIdeal (hKernelIdeal := Cert.KernelIdeal.Gen.facts) :=
  fun m ρ _ => Cert.KernelIdeal.Gen.frame m ρ

/-- The reference runs and keeps its arguments: its run, the result forgotten. -/
theorem frame_ri [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- From memories agreeing on the arguments both programs end with the specification's array. -/
theorem algebraic [Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' _ hagree
  refine ⟨fun c => SegMlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
